-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S4x2048x2 : Shape := ⟨3, ![4, 2048, 2]⟩
abbrev S8x4x2048x1024 : Shape := ⟨4, ![8, 4, 2048, 1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S4x2048x2 : S_.BroadcastsInDim S4x2048x2 (![] : Fin 0 → Fin S4x2048x2.rank)
  reducesTo_S4x2048x2_S_d0_1_2 : S4x2048x2.ReducesTo [0, 1, 2] S_
  bcast_S_S8x4x2048x1024 : S_.BroadcastsInDim S8x4x2048x1024 (![] : Fin 0 → Fin S8x4x2048x1024.rank)
  reducesTo_S8x4x2048x1024_S_d0_1_2_3 : S8x4x2048x1024.ReducesTo [0, 1, 2, 3] S_

variable [Facts]

def fn_part1 {F : FTy → Type} [FloatOps F] (main_v13 : IVec S_ 1) (main_v15 : IVec S4x2048x2 1) (main_c_5 : IVec S_ 1) : IVec S_ 1 :=
  let main_v16 : IVec S_ 1 := (fun x v => Host.reduce IntOp.andi x v reducesTo_S4x2048x2_S_d0_1_2 h_S_) main_v15 main_c_5
  let main_v17 : IVec S_ 1 := andi main_v13 main_v16
  main_v17

def fn {F : FTy → Type} [FloatOps F] (main_arg0 : FVec F S4x2048x1024 .f32) (main_arg1 : IVec S4x2048x2 32) (main_arg2 : FVec F S4x2048x2 .f32) (main_arg3 : FVec F S8x4x2048x1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S4x2048x2 .f32 := Host.absf main_arg2
  let main_cst_0 : FVec F S_ .f32 := constant S_ .f32 0x7F800000#32
  let main_v5 : FVec F S4x2048x2 .f32 := broadcastInDim S4x2048x2 ![] bcast_S_S4x2048x2 main_cst_0
  let main_v6 : IVec S4x2048x2 1 := cmpf .olt main_v4 main_v5
  let main_c_1 : IVec S_ 1 := constantI S_ 1 1#1
  let main_v7 : IVec S_ 1 := (fun x v => Host.reduce IntOp.andi x v reducesTo_S4x2048x2_S_d0_1_2 h_S_) main_v6 main_c_1
  let main_v8 : IVec S_ 1 := andi main_v3 main_v7
  let main_v9 : FVec F S8x4x2048x1024 .f32 := Host.absf main_arg3
  let main_cst_2 : FVec F S_ .f32 := constant S_ .f32 0x7F800000#32
  let main_v10 : FVec F S8x4x2048x1024 .f32 := broadcastInDim S8x4x2048x1024 ![] bcast_S_S8x4x2048x1024 main_cst_2
  let main_v11 : IVec S8x4x2048x1024 1 := cmpf .olt main_v9 main_v10
  let main_c_3 : IVec S_ 1 := constantI S_ 1 1#1
  let main_v12 : IVec S_ 1 := (fun x v => Host.reduce IntOp.andi x v reducesTo_S8x4x2048x1024_S_d0_1_2_3 h_S_) main_v11 main_c_3
  let main_v13 : IVec S_ 1 := andi main_v8 main_v12
  let main_c_4 : IVec S_ 32 := constantI S_ 32 0#32
  let main_v14 : IVec S4x2048x2 32 := broadcastInDim S4x2048x2 ![] bcast_S_S4x2048x2 main_c_4
  let main_v15 : IVec S4x2048x2 1 := cmpi .sge main_arg1 main_v14
  let main_c_5 : IVec S_ 1 := constantI S_ 1 1#1
  fn_part1 (F := F) main_v13 main_v15 main_c_5
-- ==== Kernel.lean ====
abbrev S4x2048x1024 : Shape := ⟨3, ![4, 2048, 1024]⟩
abbrev S4x2048x2 : Shape := ⟨3, ![4, 2048, 2]⟩
abbrev S8x4x2048x1024 : Shape := ⟨4, ![8, 4, 2048, 1024]⟩
abbrev S_ : Shape := ⟨0, ![]⟩
abbrev S8 : Shape := ⟨1, ![8]⟩
abbrev S4x2048x2x1 : Shape := ⟨4, ![4, 2048, 2, 1]⟩
abbrev S1x1x1x8 : Shape := ⟨4, ![1, 1, 1, 8]⟩
abbrev S4x2048x2x8 : Shape := ⟨4, ![4, 2048, 2, 8]⟩
abbrev S4x2048x8 : Shape := ⟨3, ![4, 2048, 8]⟩
abbrev S1x512x8 : Shape := ⟨3, ![1, 512, 8]⟩
abbrev S8x1x512x1024 : Shape := ⟨4, ![8, 1, 512, 1024]⟩
abbrev S1x512x1024 : Shape := ⟨3, ![1, 512, 1024]⟩
abbrev S1x512x1 : Shape := ⟨3, ![1, 512, 1]⟩
abbrev S512x1 : Shape := ⟨2, ![512, 1]⟩
abbrev S1x1x512x1024 : Shape := ⟨4, ![1, 1, 512, 1024]⟩
abbrev S512x1024 : Shape := ⟨2, ![512, 1024]⟩

abbrev nBuf : Space → Nat
  | .hbm => 25
  | .vmem => 6
  | .smem => 0
  | _ => 0

abbrev bufTy : (tb : Table) → Fin (tcTables nBuf tb) → BufTy
  | .hbm, ⟨0, _⟩ => ⟨S4x2048x1024, .f32⟩
  | .hbm, ⟨1, _⟩ => ⟨S4x2048x2, .i32⟩
  | .hbm, ⟨2, _⟩ => ⟨S4x2048x2, .f32⟩
  | .hbm, ⟨3, _⟩ => ⟨S8x4x2048x1024, .f32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S4x2048x2, .i32⟩
  | .hbm, ⟨8, _⟩ => ⟨S4x2048x2, .i32⟩
  | .hbm, ⟨9, _⟩ => ⟨S_, .i32⟩
  | .hbm, ⟨10, _⟩ => ⟨S4x2048x2, .i32⟩
  | .hbm, ⟨11, _⟩ => ⟨S4x2048x2, .i32⟩
  | .hbm, ⟨12, _⟩ => ⟨S8, .i32⟩
  | .hbm, ⟨13, _⟩ => ⟨S4x2048x2x1, .i32⟩
  | .hbm, ⟨14, _⟩ => ⟨S1x1x1x8, .i32⟩
  | .hbm, ⟨15, _⟩ => ⟨S4x2048x2x8, .i32⟩
  | .hbm, ⟨16, _⟩ => ⟨S4x2048x2x8, .i32⟩
  | .hbm, ⟨17, _⟩ => ⟨S4x2048x2x8, .i1⟩
  | .hbm, ⟨18, _⟩ => ⟨S4x2048x2x8, .f32⟩
  | .hbm, ⟨19, _⟩ => ⟨S4x2048x2x1, .f32⟩
  | .hbm, ⟨20, _⟩ => ⟨S4x2048x2x8, .f32⟩
  | .hbm, ⟨21, _⟩ => ⟨S4x2048x2x8, .f32⟩
  | .hbm, ⟨22, _⟩ => ⟨S_, .f32⟩
  | .hbm, ⟨23, _⟩ => ⟨S4x2048x8, .f32⟩
  | .hbm, ⟨24, _⟩ => ⟨S4x2048x1024, .f32⟩
  | .local _ .vmem, ⟨0, _⟩ => ⟨S1x512x8, .f32⟩
  | .local _ .vmem, ⟨1, _⟩ => ⟨S1x512x8, .f32⟩
  | .local _ .vmem, ⟨2, _⟩ => ⟨S8x1x512x1024, .f32⟩
  | .local _ .vmem, ⟨3, _⟩ => ⟨S8x1x512x1024, .f32⟩
  | .local _ .vmem, ⟨4, _⟩ => ⟨S1x512x1024, .f32⟩
  | .local _ .vmem, ⟨5, _⟩ => ⟨S1x512x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  bcast_S_S4x2048x2 : S_.BroadcastsInDim S4x2048x2 (![] : Fin 0 → Fin S4x2048x2.rank)
  bcast_S4x2048x2_S4x2048x2x1_0_1_2 : S4x2048x2.BroadcastsInDim S4x2048x2x1 (![0, 1, 2] : Fin 3 → Fin S4x2048x2x1.rank)
  bcast_S8_S1x1x1x8_3 : S8.BroadcastsInDim S1x1x1x8 (![3] : Fin 1 → Fin S1x1x1x8.rank)
  bcast_S4x2048x2x1_S4x2048x2x8_0_1_2_3 : S4x2048x2x1.BroadcastsInDim S4x2048x2x8 (![0, 1, 2, 3] : Fin 4 → Fin S4x2048x2x8.rank)
  bcast_S1x1x1x8_S4x2048x2x8_0_1_2_3 : S1x1x1x8.BroadcastsInDim S4x2048x2x8 (![0, 1, 2, 3] : Fin 4 → Fin S4x2048x2x8.rank)
  reducesTo_S4x2048x2x8_S4x2048x8_d2 : S4x2048x2x8.ReducesTo [2] S4x2048x8
  h_S_ : 0 < S_.numel
  inb_S1x512x8_S1x512x1_0_0_0 : ∀ a, (![0, 0, 0] : Fin 3 → Nat) a + S1x512x1.size a ≤ S1x512x8.size a
  h_S1x512x1 : 0 < S1x512x1.numel
  shapeCasts_S1x512x1_S512x1 : S1x512x1.ShapeCasts S512x1
  inb_S8x1x512x1024_S1x1x512x1024_0_0_0_0 : ∀ a, (![0, 0, 0, 0] : Fin 4 → Nat) a + S1x1x512x1024.size a ≤ S8x1x512x1024.size a
  h_S1x1x512x1024 : 0 < S1x1x512x1024.numel
  shapeCasts_S1x1x512x1024_S512x1024 : S1x1x512x1024.ShapeCasts S512x1024
  broadcasts_S512x1_S512x1024 : S512x1.Broadcasts S512x1024
  inb_S1x512x8_S1x512x1_0_0_1 : ∀ a, (![0, 0, 1] : Fin 3 → Nat) a + S1x512x1.size a ≤ S1x512x8.size a
  inb_S8x1x512x1024_S1x1x512x1024_1_0_0_0 : ∀ a, (![1, 0, 0, 0] : Fin 4 → Nat) a + S1x1x512x1024.size a ≤ S8x1x512x1024.size a
  inb_S1x512x8_S1x512x1_0_0_2 : ∀ a, (![0, 0, 2] : Fin 3 → Nat) a + S1x512x1.size a ≤ S1x512x8.size a
  inb_S8x1x512x1024_S1x1x512x1024_2_0_0_0 : ∀ a, (![2, 0, 0, 0] : Fin 4 → Nat) a + S1x1x512x1024.size a ≤ S8x1x512x1024.size a
  inb_S1x512x8_S1x512x1_0_0_3 : ∀ a, (![0, 0, 3] : Fin 3 → Nat) a + S1x512x1.size a ≤ S1x512x8.size a
  inb_S8x1x512x1024_S1x1x512x1024_3_0_0_0 : ∀ a, (![3, 0, 0, 0] : Fin 4 → Nat) a + S1x1x512x1024.size a ≤ S8x1x512x1024.size a
  inb_S1x512x8_S1x512x1_0_0_4 : ∀ a, (![0, 0, 4] : Fin 3 → Nat) a + S1x512x1.size a ≤ S1x512x8.size a
  inb_S8x1x512x1024_S1x1x512x1024_4_0_0_0 : ∀ a, (![4, 0, 0, 0] : Fin 4 → Nat) a + S1x1x512x1024.size a ≤ S8x1x512x1024.size a
  inb_S1x512x8_S1x512x1_0_0_5 : ∀ a, (![0, 0, 5] : Fin 3 → Nat) a + S1x512x1.size a ≤ S1x512x8.size a
  inb_S8x1x512x1024_S1x1x512x1024_5_0_0_0 : ∀ a, (![5, 0, 0, 0] : Fin 4 → Nat) a + S1x1x512x1024.size a ≤ S8x1x512x1024.size a
  inb_S1x512x8_S1x512x1_0_0_6 : ∀ a, (![0, 0, 6] : Fin 3 → Nat) a + S1x512x1.size a ≤ S1x512x8.size a
  inb_S8x1x512x1024_S1x1x512x1024_6_0_0_0 : ∀ a, (![6, 0, 0, 0] : Fin 4 → Nat) a + S1x1x512x1024.size a ≤ S8x1x512x1024.size a
  inb_S1x512x8_S1x512x1_0_0_7 : ∀ a, (![0, 0, 7] : Fin 3 → Nat) a + S1x512x1.size a ≤ S1x512x8.size a
  inb_S8x1x512x1024_S1x1x512x1024_7_0_0_0 : ∀ a, (![7, 0, 0, 0] : Fin 4 → Nat) a + S1x1x512x1024.size a ≤ S8x1x512x1024.size a
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  shapeCasts_S512x1024_S1x512x1024 : S512x1024.ShapeCasts S1x512x1024
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x8.size a ≤ S4x2048x8.size a
  hwx0_0 : ∀ i : grid0.Coords, EltTy.bits .f32 = 32 ∨ (Rect.block (s := S4x2048x8) S1x512x8.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x1x512x1024.size a ≤ S8x4x2048x1024.size a
  hwx0_1 : ∀ i : grid0.Coords, EltTy.bits .f32 = 32 ∨ (Rect.block (s := S8x4x2048x1024) S8x1x512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x1024.size a ≤ S4x2048x1024.size a
  hwx0_2 : ∀ i : grid0.Coords, EltTy.bits .f32 = 32 ∨ (Rect.block (s := S4x2048x1024) S1x512x1024.size (cc0_transform_2 i) (hinb0_2 i)).WholeWords (EltTy.packing .f32)

variable [Facts₀]

abbrev win0_0 : Pipeline.Window sig grid0 :=
  Pipeline.Window.ofSpec (Memref.whole main_v11) S1x512x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S8x1x512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S1x512x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x2048x1024 : Shape := ⟨3, ![4, 2048, 1024]⟩
abbrev S4x2048x2 : Shape := ⟨3, ![4, 2048, 2]⟩
abbrev S8x4x2048x1024 : Shape := ⟨4, ![8, 4, 2048, 1024]⟩
abbrev S4 : Shape := ⟨1, ![4]⟩
abbrev S4x1x1 : Shape := ⟨3, ![4, 1, 1]⟩
abbrev S2048 : Shape := ⟨1, ![2048]⟩
abbrev S1x2048x1 : Shape := ⟨3, ![1, 2048, 1]⟩
abbrev S_ : Shape := ⟨0, ![]⟩
abbrev S4x2048x2x1 : Shape := ⟨4, ![4, 2048, 2, 1]⟩
abbrev S4x2048x2x3 : Shape := ⟨4, ![4, 2048, 2, 3]⟩
abbrev S4x2048x2x1024 : Shape := ⟨4, ![4, 2048, 2, 1024]⟩

abbrev nBuf : Space → Nat
  | .hbm => 41
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048x2, .i32⟩
  | .hbm, ⟨2, _⟩ => ⟨S4x2048x2, .f32⟩
  | .hbm, ⟨3, _⟩ => ⟨S8x4x2048x1024, .f32⟩
  | .hbm, ⟨4, _⟩ => ⟨S4, .i32⟩
  | .hbm, ⟨5, _⟩ => ⟨S4x1x1, .i32⟩
  | .hbm, ⟨6, _⟩ => ⟨S2048, .i32⟩
  | .hbm, ⟨7, _⟩ => ⟨S1x2048x1, .i32⟩
  | .hbm, ⟨8, _⟩ => ⟨S_, .i32⟩
  | .hbm, ⟨9, _⟩ => ⟨S4x2048x2, .i32⟩
  | .hbm, ⟨10, _⟩ => ⟨S4x2048x2, .i1⟩
  | .hbm, ⟨11, _⟩ => ⟨S_, .i32⟩
  | .hbm, ⟨12, _⟩ => ⟨S4x2048x2, .i32⟩
  | .hbm, ⟨13, _⟩ => ⟨S4x2048x2, .i32⟩
  | .hbm, ⟨14, _⟩ => ⟨S4x2048x2, .i32⟩
  | .hbm, ⟨15, _⟩ => ⟨S_, .i32⟩
  | .hbm, ⟨16, _⟩ => ⟨S4x1x1, .i32⟩
  | .hbm, ⟨17, _⟩ => ⟨S4x1x1, .i1⟩
  | .hbm, ⟨18, _⟩ => ⟨S_, .i32⟩
  | .hbm, ⟨19, _⟩ => ⟨S4x1x1, .i32⟩
  | .hbm, ⟨20, _⟩ => ⟨S4x1x1, .i32⟩
  | .hbm, ⟨21, _⟩ => ⟨S4x1x1, .i32⟩
  | .hbm, ⟨22, _⟩ => ⟨S_, .i32⟩
  | .hbm, ⟨23, _⟩ => ⟨S1x2048x1, .i32⟩
  | .hbm, ⟨24, _⟩ => ⟨S1x2048x1, .i1⟩
  | .hbm, ⟨25, _⟩ => ⟨S_, .i32⟩
  | .hbm, ⟨26, _⟩ => ⟨S1x2048x1, .i32⟩
  | .hbm, ⟨27, _⟩ => ⟨S1x2048x1, .i32⟩
  | .hbm, ⟨28, _⟩ => ⟨S1x2048x1, .i32⟩
  | .hbm, ⟨29, _⟩ => ⟨S4x2048x2, .i32⟩
  | .hbm, ⟨30, _⟩ => ⟨S4x2048x2, .i32⟩
  | .hbm, ⟨31, _⟩ => ⟨S4x2048x2x1, .i32⟩
  | .hbm, ⟨32, _⟩ => ⟨S4x2048x2x1, .i32⟩
  | .hbm, ⟨33, _⟩ => ⟨S4x2048x2x1, .i32⟩
  | .hbm, ⟨34, _⟩ => ⟨S4x2048x2x3, .i32⟩
  | .hbm, ⟨35, _⟩ => ⟨S4x2048x2x1024, .f32⟩
  | .hbm, ⟨36, _⟩ => ⟨S4x2048x2x1, .f32⟩
  | .hbm, ⟨37, _⟩ => ⟨S4x2048x2x1024, .f32⟩
  | .hbm, ⟨38, _⟩ => ⟨S4x2048x2x1024, .f32⟩
  | .hbm, ⟨39, _⟩ => ⟨S_, .f32⟩
  | .hbm, ⟨40, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c_1 : Ref sig .tc := ⟨.hbm, 15, rfl⟩
abbrev main_v9 : Ref sig .tc := ⟨.hbm, 16, rfl⟩
abbrev main_v10 : Ref sig .tc := ⟨.hbm, 17, rfl⟩
abbrev main_c_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c_3 : Ref sig .tc := ⟨.hbm, 22, rfl⟩
abbrev main_v14 : Ref sig .tc := ⟨.hbm, 23, rfl⟩
abbrev main_v15 : Ref sig .tc := ⟨.hbm, 24, rfl⟩
abbrev main_c_4 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst : Ref sig .tc := ⟨.hbm, 39, rfl⟩
abbrev main_v29 : Ref sig .tc := ⟨.hbm, 40, rfl⟩

abbrev nD : Nat := 1
abbrev τ : Topo := Topo.v7x

variable {F : FTy → Type} [FloatOps F]

class Facts₀ : Prop where
  bcast_S4_S4x1x1_0 : S4.BroadcastsInDim S4x1x1 (![0] : Fin 1 → Fin S4x1x1.rank)
  bcast_S2048_S1x2048x1_1 : S2048.BroadcastsInDim S1x2048x1 (![1] : Fin 1 → Fin S1x2048x1.rank)
  bcast_S_S4x2048x2 : S_.BroadcastsInDim S4x2048x2 (![] : Fin 0 → Fin S4x2048x2.rank)
  bcast_S_S4x1x1 : S_.BroadcastsInDim S4x1x1 (![] : Fin 0 → Fin S4x1x1.rank)
  bcast_S_S1x2048x1 : S_.BroadcastsInDim S1x2048x1 (![] : Fin 0 → Fin S1x2048x1.rank)
  bcast_S4x1x1_S4x2048x2_0_1_2 : S4x1x1.BroadcastsInDim S4x2048x2 (![0, 1, 2] : Fin 3 → Fin S4x2048x2.rank)
  bcast_S1x2048x1_S4x2048x2_0_1_2 : S1x2048x1.BroadcastsInDim S4x2048x2 (![0, 1, 2] : Fin 3 → Fin S4x2048x2.rank)
  bcast_S4x2048x2_S4x2048x2x1_0_1_2 : S4x2048x2.BroadcastsInDim S4x2048x2x1 (![0, 1, 2] : Fin 3 → Fin S4x2048x2x1.rank)
  concatenates_S4x2048x2x1_S4x2048x2x1_S4x2048x2x1_S4x2048x2x3_d3 : Shape.Concatenates [S4x2048x2x1, S4x2048x2x1, S4x2048x2x1] S4x2048x2x3 3
  bcast_S4x2048x2x1_S4x2048x2x1024_0_1_2_3 : S4x2048x2x1.BroadcastsInDim S4x2048x2x1024 (![0, 1, 2, 3] : Fin 4 → Fin S4x2048x2x1024.rank)
  reducesTo_S4x2048x2x1024_S4x2048x1024_d2 : S4x2048x2x1024.ReducesTo [2] S4x2048x1024
  h_S_ : 0 < S_.numel
  gather_S8x4x2048x1024_S4x2048x2x3_S4x2048x2x1024_3_012_n_n_012_3_1111024_wf : GatherDims.WF S8x4x2048x1024 S4x2048x2x3 S4x2048x2x1024 [3] [0, 1, 2] [] [0, 1, 2] [] 3 ![1, 1, 1, 1024]

variable [Facts₀]

def gather_S8x4x2048x1024_S4x2048x2x3_S4x2048x2x1024_3_012_n_n_012_3_1111024 : GatherDims S8x4x2048x1024 S4x2048x2x3 S4x2048x2x1024 where
  offsetDims := [3]
  collapsedSliceDims := [0, 1, 2]
  operandBatchingDims := []
  startIndicesBatchingDims := []
  startIndexMap := [0, 1, 2]
  indexVectorDim := 3
  sliceSizes := ![1, 1, 1, 1024]
  wf := gather_S8x4x2048x1024_S4x2048x2x3_S4x2048x2x1024_3_012_n_n_012_3_1111024_wf

class Facts : Prop extends Facts₀ where

variable [Facts]
-- ==== Proof.PreFacts.lean ====
/-
  What the precondition says, element by element.

  The precondition is a conjunction of four `all`s: `|x| < +∞` over each of the three float inputs, and `0 ≤ id` over
  the expert ids. Read back: every gate weight and every expert value is a real number (neither infinity), and every
  expert id, read as a signed integer, is not negative.
-/
import proofs.«413084_j64639257805147_3_alg».proof.Pre_finite_inputs
import Idealize.ShloMosaic.Lib.ReduceAll
import Idealize.ShloMosaic.Lib.ValueIdx
import Idealize.ShloMosaic.PureOps.Ideal

namespace Cert.Mix

open Idealize.ShloMosaic Cert.Pre_finite_inputs

/-- An extended real whose absolute value is below `+∞` is a real number. -/
theorem real_of_abs_lt_top (x : EReal)
    (h : FloatOps.cmpf (F := Ideal) .olt (FloatOps.hostAbsf x) (FloatOps.ofBits (F := Ideal) .f32 0x7F800000#32) = 1#1) :
    ∃ r : ℝ, x = (r : EReal) := by
  have htop : Ideal.ofBits .f32 0x7F800000#32 = ⊤ := by simp [Ideal.ofBits, Ideal.ieee]
  have h' : Ideal.cmp .olt (max x (-x)) (Ideal.ofBits .f32 0x7F800000#32) = 1#1 := h
  rw [htop] at h'
  have hlt : max x (-x) < ⊤ := by
    by_contra hn
    simp [Ideal.cmp, hn] at h'
  induction x using EReal.rec with
  | bot => simp at hlt
  | coe r => exact ⟨r, rfl⟩
  | top => simp at hlt

/-- A word that passes the signed test `0 ≤ z` is not negative. -/
theorem nonneg_of_sge (z : BitVec 32) (h : IntOp.cmpi .sge z 0#32 = 1#1) : 0 ≤ z.toInt := by
  by_contra hn
  simp [IntOp.cmpi, BitVec.sle, hn] at h

instance : Subsingleton S_.Idx := ⟨fun a b => funext fun d => d.elim0⟩

/-- The precondition, read back at every index. -/
theorem pre_elementwise [Facts] (a0 : FVec Ideal S4x2048x1024 .f32) (a1 : IVec S4x2048x2 32)
    (a2 : FVec Ideal S4x2048x2 .f32) (a3 : FVec Ideal S8x4x2048x1024 .f32)
    (h : fn (F := Ideal) a0 a1 a2 a3 = fun _ => 1#1) :
    (∀ i, ∃ r : ℝ, a2 i = (r : EReal)) ∧ (∀ i, ∃ r : ℝ, a3 i = (r : EReal)) ∧ (∀ i, 0 ≤ (a1 i).toInt) := by
  have h0 := congrFun h ValueIdx.ix0
  dsimp only [fn, fn_part1, andi] at h0
  obtain ⟨h123, h4⟩ := IntOp.andi_eq_one.1 h0
  obtain ⟨h12, h3⟩ := IntOp.andi_eq_one.1 h123
  obtain ⟨_, h2⟩ := IntOp.andi_eq_one.1 h12
  refine ⟨fun i => ?_, fun i => ?_, fun i => ?_⟩
  · exact real_of_abs_lt_top _ (Host.reduce_andi_all _ _ _ _ _ h2 i)
  · exact real_of_abs_lt_top _ (Host.reduce_andi_all _ _ _ _ _ h3 i)
  · exact nonneg_of_sge _ (Host.reduce_andi_all _ _ _ _ _ h4 i)

end Cert.Mix
-- ==== Proof.Words.lean ====
/-
  The integer side of the mixture: which expert a token's id selects.

  An id `z` (a 32-bit word read signed) that is not negative selects expert `pick z = min z 7` in BOTH programs:
  the reference's negative-index wrap (`z + 8` when `z < 0`) leaves it alone and the gather then clamps it into
  `[0, 7]`; the kernel clips it into `[0, 7]` itself and compares the clipped word with each expert number.
-/
import Idealize.ShloMosaic.Lib.ValueIdx
import Idealize.ShloMosaic.PureOps.Ideal

namespace Cert.Mix

open Idealize.ShloMosaic

/-- The expert a non-negative id selects: the id itself, capped at the last expert. -/
def pick (z : BitVec 32) : Fin 8 := ⟨min z.toInt.toNat 7, by omega⟩

@[simp] theorem pick_val (z : BitVec 32) : (pick z).val = min z.toInt.toNat 7 := rfl

/-- A word that is not negative reads the same signed and unsigned, below 2³¹. -/
theorem toInt_of_nonneg {z : BitVec 32} (hz : 0 ≤ z.toInt) : z.toInt = z.toNat ∧ z.toNat < 2 ^ 31 := by
  have h := BitVec.toInt_eq_toNat_cond z
  split at h <;> omega

/-- The reference's wrap of a negative index (`z + 8` when `z < 0`) does nothing to an id that is not negative. -/
theorem wrap_of_nonneg (z : BitVec 32) (hz : 0 ≤ z.toInt) :
    Scalar.select (IntOp.cmpi .slt z 0#32) (IntOp.addi z 8#32) z = z := by
  have h0 : IntOp.cmpi .slt z 0#32 = 0#1 := by
    have : ¬ z.toInt < 0 := by omega
    simp [IntOp.cmpi, BitVec.slt, this]
  rw [h0]; exact ValueIdx.select_zero _ _

/-- The kernel's clip of an id into `[0, 7]`, compared with expert number `e`: the bit is set exactly when the id
    selects `e`. -/
theorem clip_eq_bit (z : BitVec 32) (hz : 0 ≤ z.toInt) (e : Fin 8) :
    (IntOp.cmpi .eq (IntOp.minsi 7#32 (IntOp.maxsi 0#32 z)) (BitVec.ofNat 32 e.val)).toNat
      = if pick z = e then 1 else 0 := by
  obtain ⟨hzi, hzn⟩ := toInt_of_nonneg hz
  have hmax : IntOp.maxsi 0#32 z = z := by
    have : ¬ z.toInt < 0 := by omega
    simp [IntOp.maxsi, BitVec.slt, this]
  rw [hmax]
  have h7 : (7#32 : BitVec 32).toInt = 7 := by decide
  have he : e.val < 8 := e.isLt
  by_cases hgt : (7 : Int) < z.toInt
  · have hmin : IntOp.minsi 7#32 z = 7#32 := by
      simp [IntOp.minsi, BitVec.slt, h7, hgt]
    rw [hmin]
    have hp : (pick z).val = 7 := by rw [pick_val]; omega
    by_cases hq : pick z = e
    · rw [if_pos hq]
      have : e.val = 7 := by rw [← hq]; exact hp
      simp [IntOp.cmpi, this]
    · rw [if_neg hq]
      have : e.val ≠ 7 := fun h => hq (Fin.ext (hp.trans h.symm))
      have hne : ¬ (7#32 : BitVec 32) = BitVec.ofNat 32 e.val := by
        intro h
        have := congrArg BitVec.toNat h
        simp at this; omega
      simp [IntOp.cmpi, hne]
  · have hmin : IntOp.minsi 7#32 z = z := by
      simp [IntOp.minsi, BitVec.slt, h7, hgt]
    rw [hmin]
    have hp : (pick z).val = z.toNat := by rw [pick_val]; omega
    by_cases hq : pick z = e
    · rw [if_pos hq]
      have : z = BitVec.ofNat 32 e.val := by
        apply BitVec.eq_of_toNat_eq
        rw [BitVec.toNat_ofNat, ← hq, hp]; omega
      simp [IntOp.cmpi, this]
    · rw [if_neg hq]
      have hne : ¬ z = BitVec.ofNat 32 e.val := by
        intro h
        apply hq; apply Fin.ext; rw [hp, h, BitVec.toNat_ofNat]; omega
      simp [IntOp.cmpi, hne]

end Cert.Mix
-- ==== Proof.LibGather3.lean ====
/-
  A `stablehlo.gather` whose start index has THREE components, read at a result index.

  The operand is a rank-4 table `[U × V × W × L]`: its three leading axes are "gathered" (collapsed, and named in order
  by the start index map) and its last axis, of extent `L`, is kept whole (the one offset axis of the result). The start
  indices are a rank-4 array `[N₁ × N₂ × N₃ × 3]`, one three-component start index per position `(n₁, n₂, n₃)` (the
  index vector on the last axis), so the result is `[N₁ × N₂ × N₃ × L]`. Result element `(n₁, n₂, n₃, l)` is the
  table at `(u, v, w, l)`, where `u`, `v`, `w` are the three components of the start index at `(n₁, n₂, n₃)`, each
  read as a SIGNED integer and clamped into its axis (`clampIdx`: a negative component reads position 0, one past
  the end reads the last position), as StableHLO's gather clamps every start index.
-/
import Idealize.ShloMosaic.Lib.ValueIdx
import Idealize.ShloMosaic.PureOps.ShapeOps
import Idealize.ShloMosaic.PureOps.Dims

namespace Cert.LibGather3

open Idealize.ShloMosaic Idealize.ShloMosaic.ValueIdx

/-- A `w`-bit word read as a signed integer and clamped into `[0, U − 1]`: the position on an axis of extent `U` that a
    gather's start-index component names. -/
def clampIdx {w : Nat} (U : Nat) (hU : 0 < U) (z : BitVec w) : Fin U := ⟨min z.toInt.toNat (U - 1), by omega⟩

@[simp] theorem clampIdx_val {w : Nat} (U : Nat) (hU : 0 < U) (z : BitVec w) :
    (clampIdx U hU z).val = min z.toInt.toNat (U - 1) := rfl

/-- Reading position `idxOf b` (found in one list) of another list, when both lists are known. -/
private theorem getElem_idxOf_of_eq {β γ : Type} [DecidableEq γ] {l : List β} {l' : List γ} {b : γ}
    (L : List β) (hl : l = L) (L' : List γ) (hl' : l' = L') (pf : l'.idxOf b < l.length) :
    l[l'.idxOf b]'pf = L[L'.idxOf b]'(by subst hl hl'; exact pf) := by
  subst hl hl'; rfl

/-- A list equal to a singleton has that one element at every position. -/
private theorem getElem_of_eq_singleton {β : Type} {l : List β} {a : β} (hl : l = [a]) (k : Nat) (h : k < l.length) :
    l[k]'h = a := by
  subst hl; simp

section
variable {U V W L N₁ N₂ N₃ w : Nat}
  (d : GatherDims ⟨4, ![U, V, W, L]⟩ ⟨4, ![N₁, N₂, N₃, 3]⟩ ⟨4, ![N₁, N₂, N₃, L]⟩)

/-- With the one offset axis last, the result's batch axes are its three leading ones. -/
private theorem batchDims_eq (hod : d.offsetDims = [3]) : d.batchDims = [0, 1, 2] := by
  show Shape.kept _ d.offsetDims = [0, 1, 2]
  rw [hod]; rfl

/-- With the index vector on the last axis, the start indices' other axes are the three leading ones. -/
private theorem siKept_eq (hivd : d.indexVectorDim = 3) : d.siKept = [0, 1, 2] := by
  show (List.finRange 4).filter (fun x => decide (x.val ≠ d.indexVectorDim)) = [0, 1, 2]
  rw [hivd]; rfl

/-- Component `c` of the start index that result index `(n₁, n₂, n₃, l)` reads sits at `(n₁, n₂, n₃, c)`. -/
private theorem siIdx_lead3 (hod : d.offsetDims = [3]) (hivd : d.indexVectorDim = 3)
    (n₁ : Fin N₁) (n₂ : Fin N₂) (n₃ : Fin N₃) (l : Fin L) (c : Fin d.startIndexMap.length) (c' : Fin 3)
    (hc : c.val = c'.val) :
    d.siIdx (ix4 n₁ n₂ n₃ l) c = ix4 n₁ n₂ n₃ c' := by
  have hbd := batchDims_eq d hod
  have hsk := siKept_eq d hivd
  funext e
  match e with
  | ⟨0, _⟩ =>
    unfold GatherDims.siIdx
    rw [dif_neg (by rw [hivd]; simp)]
    unfold GatherDims.siCoord
    apply Fin.ext
    simp only [Fin.val_cast]
    rw [getElem_idxOf_of_eq [0, 1, 2] hbd [0, 1, 2] hsk]
    rfl
  | ⟨1, _⟩ =>
    unfold GatherDims.siIdx
    rw [dif_neg (by rw [hivd]; simp)]
    unfold GatherDims.siCoord
    apply Fin.ext
    simp only [Fin.val_cast]
    rw [getElem_idxOf_of_eq [0, 1, 2] hbd [0, 1, 2] hsk]
    rfl
  | ⟨2, _⟩ =>
    unfold GatherDims.siIdx
    rw [dif_neg (by rw [hivd]; simp)]
    unfold GatherDims.siCoord
    apply Fin.ext
    simp only [Fin.val_cast]
    rw [getElem_idxOf_of_eq [0, 1, 2] hbd [0, 1, 2] hsk]
    rfl
  | ⟨3, _⟩ =>
    unfold GatherDims.siIdx
    rw [dif_pos (by rw [hivd])]
    exact Fin.ext hc

/-- The operand coordinate on a GATHERED axis `a` (collapsed; position `c'` of the start index map; no batching): the
    start index's component `c'`, read signed and clamped to the axis. -/
private theorem coord_gathered (hod : d.offsetDims = [3]) (hob : d.operandBatchingDims = []) (hivd : d.indexVectorDim = 3)
    (n₁ : Fin N₁) (n₂ : Fin N₂) (n₃ : Fin N₃) (l : Fin L) (idx : IVec ⟨4, ![N₁, N₂, N₃, 3]⟩ w)
    (a : Fin 4) (ha : a ∈ d.startIndexMap) (hcl : a ∈ d.collapsedSliceDims) (c' : Fin 3)
    (hc : d.startIndexMap.idxOf a = c'.val) :
    (d.operandIdx (ix4 n₁ n₂ n₃ l) idx a).val
      = min (idx (ix4 n₁ n₂ n₃ c')).toInt.toNat ((⟨4, ![U, V, W, L]⟩ : Shape).size a - 1) := by
  show d.start (ix4 n₁ n₂ n₃ l) idx a + d.batchCoord (ix4 n₁ n₂ n₃ l) a + d.offCoord (ix4 n₁ n₂ n₃ l) a = _
  rw [d.batchCoord_eq_zero _ a (by rw [hob]; exact List.not_mem_nil),
    d.offCoord_eq_zero _ a (fun h => ((d.mem_sKept a).1 h).1 hcl)]
  simp only [Nat.add_zero]
  unfold GatherDims.start
  rw [dif_pos ha, d.slice_collapsed a hcl, siIdx_lead3 d hod hivd n₁ n₂ n₃ l _ c' hc]

/-- The operand coordinate on the KEPT last axis (not collapsed, not named by the start index map; no batching): the
    result index's last coordinate. -/
private theorem coord_kept (hod : d.offsetDims = [3]) (hob : d.operandBatchingDims = [])
    (j : (⟨4, ![N₁, N₂, N₃, L]⟩ : Shape).Idx) (idx : IVec ⟨4, ![N₁, N₂, N₃, 3]⟩ w) (a : Fin 4)
    (ha : a ∉ d.startIndexMap) (hcl : a ∉ d.collapsedSliceDims) : (d.operandIdx j idx a).val = (j 3).val := by
  have hb : a ∉ d.operandBatchingDims := by rw [hob]; exact List.not_mem_nil
  show d.start j idx a + d.batchCoord j a + d.offCoord j a = _
  rw [d.batchCoord_eq_zero j a hb]
  unfold GatherDims.offCoord
  rw [dif_pos ((d.mem_sKept a).2 ⟨hcl, hb⟩), getElem_of_eq_singleton hod]
  unfold GatherDims.start
  rw [dif_neg ha]
  simp only [Nat.add_zero, Nat.zero_add]

/-- THE READ. Result element `(n₁, n₂, n₃, l)` of the gather of a `[U × V × W × L]` table at an `[N₁ × N₂ × N₃ × 3]`
    array of start indices is the table at `(u, v, w, l)`: `u`, `v`, `w` the three components of the start index at
    `(n₁, n₂, n₃)`, each read signed and clamped into its axis. The hypotheses are the printed dimension numbers (each
    `rfl` at a program's literal attribute); the slice sizes need none: a collapsed axis has slice size one, and the kept
    axis starts at 0 whatever its slice. -/
theorem gather_lead3 {α : Type} (hod : d.offsetDims = [3]) (hcoll : d.collapsedSliceDims = [0, 1, 2])
    (hob : d.operandBatchingDims = []) (hsim : d.startIndexMap = [0, 1, 2]) (hivd : d.indexVectorDim = 3)
    (hU : 0 < U) (hV : 0 < V) (hW : 0 < W)
    (x : (⟨4, ![U, V, W, L]⟩ : Shape).Idx → α) (idx : IVec ⟨4, ![N₁, N₂, N₃, 3]⟩ w)
    (n₁ : Fin N₁) (n₂ : Fin N₂) (n₃ : Fin N₃) (l : Fin L) :
    Host.gather d x idx (ix4 n₁ n₂ n₃ l)
      = x (ix4 (clampIdx U hU (idx (ix4 n₁ n₂ n₃ 0))) (clampIdx V hV (idx (ix4 n₁ n₂ n₃ 1)))
          (clampIdx W hW (idx (ix4 n₁ n₂ n₃ 2))) l) := by
  unfold Host.gather
  congr 1
  funext a
  apply Fin.ext
  match a with
  | ⟨0, _⟩ =>
    exact coord_gathered d hod hob hivd n₁ n₂ n₃ l idx 0 (by rw [hsim]; simp) (by rw [hcoll]; simp) 0 (by rw [hsim]; rfl)
  | ⟨1, _⟩ =>
    exact coord_gathered d hod hob hivd n₁ n₂ n₃ l idx 1 (by rw [hsim]; simp) (by rw [hcoll]; simp) 1 (by rw [hsim]; rfl)
  | ⟨2, _⟩ =>
    exact coord_gathered d hod hob hivd n₁ n₂ n₃ l idx 2 (by rw [hsim]; simp) (by rw [hcoll]; simp) 2 (by rw [hsim]; rfl)
  | ⟨3, _⟩ =>
    exact coord_kept d hod hob (ix4 n₁ n₂ n₃ l) idx 3 (by rw [hsim]; simp) (by rw [hcoll]; simp)

end

end Cert.LibGather3
-- ==== Proof.RefValue.lean ====
/-
  The reference's result, read at an index.

  For token `(b, s)` and hidden coordinate `h` the reference returns `0 + Σₖ eo(eₖ, b, s, h) · w(b, s, k)` over the
  token's two pairs, where `eₖ = pick (id(b, s, k))`: the gather's start index is (the wrapped id, the batch position,
  the sequence position); the wrap leaves an id that is not negative alone, and the two position components are the
  coordinates `b` and `s` themselves (an iota is never negative and never past the end of its own axis), so the clamp
  changes only the id, into `[0, 7]`.
-/
import proofs.«413084_j64639257805147_3_alg».proof.Proof.Gen.ReferenceIdeal.Read
import proofs.«413084_j64639257805147_3_alg».proof.Proof.Words
import proofs.«413084_j64639257805147_3_alg».proof.Proof.LibGather3
import Idealize.ShloMosaic.Lib.Pipeline.Value
import Idealize.ShloMosaic.Lib.ValueIdx
import Idealize.ShloMosaic.PureOps.Ideal.Laws

noncomputable section

namespace Cert.Mix.Ref

open Cert.ReferenceIdeal Cert.ReferenceIdeal.Gen Cert.ReferenceIdeal.Read Idealize.ShloMosaic Idealize.ShloMosaic.ValueIdx
open Cert.LibGather3 (clampIdx gather_lead3)

/-- Position `p` of an axis of extent `U`, written as a 32-bit word, is clamped to itself. -/
theorem clampIdx_ofNat (U : Nat) (hU : 0 < U) (hU' : U ≤ 2 ^ 31) (p : Fin U) :
    clampIdx U hU (BitVec.ofNat 32 p.val) = p := by
  apply Fin.ext
  have hp := p.isLt
  have : (BitVec.ofNat 32 p.val).toInt = p.val := by
    rw [BitVec.toInt_eq_toNat_cond, BitVec.toNat_ofNat]
    have : p.val % 2 ^ 32 = p.val := Nat.mod_eq_of_lt (by omega)
    rw [this, if_pos (by omega)]
  rw [Cert.LibGather3.clampIdx_val, this]
  omega

/-- A position word is never negative, so the negative-index wrap leaves it alone. -/
theorem wrap_ofNat (n : Nat) (hn : n < 2 ^ 31) (y : BitVec 32) :
    Scalar.select (IntOp.cmpi .slt (BitVec.ofNat 32 n) 0#32) y (BitVec.ofNat 32 n) = BitVec.ofNat 32 n := by
  have h0 : IntOp.cmpi .slt (BitVec.ofNat 32 n) 0#32 = 0#1 := by
    have hi : (BitVec.ofNat 32 n).toInt = n := by
      rw [BitVec.toInt_eq_toNat_cond, BitVec.toNat_ofNat]
      have : n % 2 ^ 32 = n := Nat.mod_eq_of_lt (by omega)
      rw [this, if_pos (by omega)]
    have : ¬ (BitVec.ofNat 32 n).toInt < 0 := by rw [hi]; omega
    simp [IntOp.cmpi, BitVec.slt, this]
  rw [h0]; exact select_zero _ _

variable (x1 : (⟨S4x2048x2, .i32⟩ : BufTy).Contents (Elt Ideal)) (x2 : (⟨S4x2048x2, .f32⟩ : BufTy).Contents (Elt Ideal))
  (x3 : (⟨S8x4x2048x1024, .f32⟩ : BufTy).Contents (Elt Ideal))

/-- The three pieces of the start-index array, each read at `(b, s, k)`. -/
theorem cat_apply (u0 u1 u2 : S4x2048x2x1.Idx → BitVec 32)
    (hcat : Shape.Concatenates [S4x2048x2x1, S4x2048x2x1, S4x2048x2x1] S4x2048x2x3 3)
    (b : Fin 4) (s : Fin 2048) (k : Fin 2) :
    concatenate S4x2048x2x3 3 [⟨S4x2048x2x1, u0⟩, ⟨S4x2048x2x1, u1⟩, ⟨S4x2048x2x1, u2⟩] hcat (ix4 b s k 0) = u0 (ix4 b s k 0)
    ∧ concatenate S4x2048x2x3 3 [⟨S4x2048x2x1, u0⟩, ⟨S4x2048x2x1, u1⟩, ⟨S4x2048x2x1, u2⟩] hcat (ix4 b s k 1) = u1 (ix4 b s k 0)
    ∧ concatenate S4x2048x2x3 3 [⟨S4x2048x2x1, u0⟩, ⟨S4x2048x2x1, u1⟩, ⟨S4x2048x2x1, u2⟩] hcat (ix4 b s k 2) = u2 (ix4 b s k 0) := by
  refine ⟨?_, ?_, ?_⟩
  · exact concatenate_apply_piece (t := S4x2048x2x3) 3 [⟨S4x2048x2x1, u0⟩, ⟨S4x2048x2x1, u1⟩, ⟨S4x2048x2x1, u2⟩] hcat (ix4 b s k 0) 0 (by simp) S4x2048x2x1 u0 rfl rfl 0 rfl (ix4 b s k 0)
      (fun b' hb' => by match b' with | ⟨0, _⟩ => rfl | ⟨1, _⟩ => rfl | ⟨2, _⟩ => rfl | ⟨3, _⟩ => exact absurd rfl hb') rfl
  · exact concatenate_apply_piece (t := S4x2048x2x3) 3 [⟨S4x2048x2x1, u0⟩, ⟨S4x2048x2x1, u1⟩, ⟨S4x2048x2x1, u2⟩] hcat (ix4 b s k 1) 1 (by simp) S4x2048x2x1 u1 rfl rfl 1 rfl (ix4 b s k 0)
      (fun b' hb' => by match b' with | ⟨0, _⟩ => rfl | ⟨1, _⟩ => rfl | ⟨2, _⟩ => rfl | ⟨3, _⟩ => exact absurd rfl hb') rfl
  · exact concatenate_apply_piece (t := S4x2048x2x3) 3 [⟨S4x2048x2x1, u0⟩, ⟨S4x2048x2x1, u1⟩, ⟨S4x2048x2x1, u2⟩] hcat (ix4 b s k 2) 2 (by simp) S4x2048x2x1 u2 rfl rfl 2 rfl (ix4 b s k 0)
      (fun b' hb' => by match b' with | ⟨0, _⟩ => rfl | ⟨1, _⟩ => rfl | ⟨2, _⟩ => rfl | ⟨3, _⟩ => exact absurd rfl hb') rfl

/-- Where the layout operations read, at the indices met below. -/
theorem e29 (b : Fin 4) (s : Fin 2048) (h : Fin 1024) (k : Fin 2) : idx_main_v29 (ix3 b s h) k = ix4 b s k h :=
  funext fun a => Fin.ext (by match a with | ⟨0, _⟩ => rfl | ⟨1, _⟩ => rfl | ⟨2, _⟩ => rfl | ⟨3, _⟩ => rfl)
theorem e27 (b : Fin 4) (s : Fin 2048) (k : Fin 2) (h : Fin 1024) : idx_main_v27 (ix4 b s k h) = ix4 b s k 0 :=
  funext fun a => Fin.ext (by match a with | ⟨0, _⟩ => rfl | ⟨1, _⟩ => rfl | ⟨2, _⟩ => rfl | ⟨3, _⟩ => rfl)
theorem e26 (b : Fin 4) (s : Fin 2048) (k : Fin 2) : idx_main_v26 (ix4 b s k 0) = ix3 b s k :=
  funext fun a => Fin.ext (by match a with | ⟨0, _⟩ => rfl | ⟨1, _⟩ => rfl | ⟨2, _⟩ => rfl)
theorem e21 (b : Fin 4) (s : Fin 2048) (k : Fin 2) : idx_main_v21 (ix4 b s k 0) = ix3 b s k :=
  funext fun a => Fin.ext (by match a with | ⟨0, _⟩ => rfl | ⟨1, _⟩ => rfl | ⟨2, _⟩ => rfl)
theorem e22 (b : Fin 4) (s : Fin 2048) (k : Fin 2) : idx_main_v22 (ix4 b s k 0) = ix3 b s k :=
  funext fun a => Fin.ext (by match a with | ⟨0, _⟩ => rfl | ⟨1, _⟩ => rfl | ⟨2, _⟩ => rfl)
theorem e23 (b : Fin 4) (s : Fin 2048) (k : Fin 2) : idx_main_v23 (ix4 b s k 0) = ix3 b s k :=
  funext fun a => Fin.ext (by match a with | ⟨0, _⟩ => rfl | ⟨1, _⟩ => rfl | ⟨2, _⟩ => rfl)
theorem e19 (b : Fin 4) (s : Fin 2048) (k : Fin 2) : idx_main_v19 (ix3 b s k) = ix3 b 0 0 :=
  funext fun a => Fin.ext (by match a with | ⟨0, _⟩ => rfl | ⟨1, _⟩ => rfl | ⟨2, _⟩ => rfl)
theorem e20 (b : Fin 4) (s : Fin 2048) (k : Fin 2) : idx_main_v20 (ix3 b s k) = ix3 0 s 0 :=
  funext fun a => Fin.ext (by match a with | ⟨0, _⟩ => rfl | ⟨1, _⟩ => rfl | ⟨2, _⟩ => rfl)

/-- The batch-position component of every start index is the batch position. -/
theorem batch_word (b : Fin 4) : val_main_v13 (F := Ideal) (ix3 b 0 0) = BitVec.ofNat 32 b.val := by
  rw [val_main_v13_apply, val_main_v10_apply, val_main_v9_apply, val_main_c_1_apply, val_main_v1_apply, val_main_v0_apply]
  exact wrap_ofNat _ (by have := b.isLt; show b.val < 2 ^ 31; omega) _

/-- The sequence-position component of every start index is the sequence position. -/
theorem seq_word (s : Fin 2048) : val_main_v18 (F := Ideal) (ix3 0 s 0) = BitVec.ofNat 32 s.val := by
  rw [val_main_v18_apply, val_main_v15_apply, val_main_v14_apply, val_main_c_3_apply, val_main_v3_apply, val_main_v2_apply]
  exact wrap_ofNat _ (by have := s.isLt; show s.val < 2 ^ 31; omega) _

/-- The expert component of a start index is the id itself, when the id is not negative. -/
theorem id_word (hx1 : ∀ i, 0 ≤ (x1 i).toInt) (b : Fin 4) (s : Fin 2048) (k : Fin 2) :
    val_main_v8 (F := Ideal) x1 (ix3 b s k) = x1 (ix3 b s k) := by
  rw [val_main_v8_apply, val_main_v5_apply, val_main_v4_apply, val_main_c_apply, val_main_v7_apply, val_main_v6_apply,
    val_main_c_0_apply]
  exact Cert.Mix.wrap_of_nonneg _ (hx1 _)

/-- The gathered expert value of pair `k` of token `(b, s)`, at hidden coordinate `h`. -/
theorem gathered (hx1 : ∀ i, 0 ≤ (x1 i).toInt) (b : Fin 4) (s : Fin 2048) (k : Fin 2) (h : Fin 1024) :
    val_main_v25 (F := Ideal) x1 x3 (ix4 b s k h) = x3 (ix4 (Cert.Mix.pick (x1 (ix3 b s k))) b s h) := by
  unfold val_main_v25
  rw [gather_lead3 _ rfl rfl rfl rfl rfl (by decide) (by decide) (by decide) x3 _ b s k h]
  obtain ⟨c0, c1, c2⟩ := cat_apply (val_main_v21 (F := Ideal) x1) (val_main_v22 (F := Ideal)) (val_main_v23 (F := Ideal))
    concatenates_S4x2048x2x1_S4x2048x2x1_S4x2048x2x1_S4x2048x2x3_d3 b s k
  have w0 : val_main_v24 (F := Ideal) x1 (ix4 b s k 0) = x1 (ix3 b s k) := by
    unfold val_main_v24
    rw [c0, val_main_v21_apply, e21, id_word x1 hx1]
  have w1 : val_main_v24 (F := Ideal) x1 (ix4 b s k 1) = BitVec.ofNat 32 b.val := by
    unfold val_main_v24
    rw [c1, val_main_v22_apply, e22, val_main_v19_apply, e19, batch_word]
  have w2 : val_main_v24 (F := Ideal) x1 (ix4 b s k 2) = BitVec.ofNat 32 s.val := by
    unfold val_main_v24
    rw [c2, val_main_v23_apply, e23, val_main_v20_apply, e20, seq_word]
  rw [w0, w1, w2, clampIdx_ofNat 4 (by decide) (by decide) b, clampIdx_ofNat 2048 (by decide) (by decide) s]
  rfl

/-- The weight of pair `k` of token `(b, s)`, broadcast along the hidden axis. -/
theorem weight (b : Fin 4) (s : Fin 2048) (k : Fin 2) (h : Fin 1024) :
    val_main_v27 (F := Ideal) x2 (ix4 b s k h) = x2 (ix3 b s k) := by
  rw [val_main_v27_apply, e27, val_main_v26_apply, e26]

/-- THE REFERENCE'S VALUE at `(b, s, h)`: zero plus, over the token's two pairs, the selected expert's value times the
    pair's weight. -/
theorem value (hx1 : ∀ i, 0 ≤ (x1 i).toInt) (b : Fin 4) (s : Fin 2048) (h : Fin 1024) :
    val_main_v29 (F := Ideal) x1 x2 x3 (ix3 b s h)
      = 0 + ∑ k : Fin 2, x3 (ix4 (Cert.Mix.pick (x1 (ix3 b s k))) b s h) * x2 (ix3 b s k) := by
  rw [val_main_v29_apply, val_main_cst_apply]
  have hz : FloatOps.ofBits (F := Ideal) .f32 0x00000000#32 = 0 := Ideal.ofBits_zero_f32
  rw [hz]
  refine congrArg (0 + ·) (Finset.sum_congr rfl fun k _ => ?_)
  rw [e29, val_main_v28_apply, gathered x1 x3 hx1, weight x2]
  rfl

end Cert.Mix.Ref

end
-- ==== Proof.KerHost.lean ====
/-
  The kernel's host code, before the pallas_call: the table of weights spread over the experts.

  `W(b, s, e) = 0 + Σₖ [clip(id(b, s, k)) = e] · w(b, s, k)`: each id is clipped into `[0, 7]`, compared with every expert
  number, the 0/1 result made a float, multiplied by the pair's weight, and the two pairs summed. The region's first
  window stages this table.
-/
import proofs.«413084_j64639257805147_3_alg».proof.Proof.Gen.KernelIdeal.Frame
import Idealize.ShloMosaic.Lib.StableHlo.Run
import Idealize.ShloMosaic.Lib.Pipeline.Value
import Idealize.ShloMosaic.Lib.ValueIdx
import Idealize.ShloMosaic.PureOps.Ideal.Laws

noncomputable section

namespace Cert.Mix.Ker

open Cert.KernelIdeal Cert.KernelIdeal.Gen Idealize.ShloMosaic Idealize.ShloMosaic.TcCoe Idealize.SL.Sem
open Idealize.ShloMosaic.StableHlo Idealize.ShloMosaic.ValueIdx

variable {F : FTy → Type} [FloatOps F]

/-- The ids clipped into `[0, 7]`. -/
def clip (x1 : IVec S4x2048x2 32) : IVec S4x2048x2 32 :=
  minsi (broadcastInDim S4x2048x2 ![] bcast_S_S4x2048x2 (constantI S_ 32 7#32))
    (maxsi (broadcastInDim S4x2048x2 ![] bcast_S_S4x2048x2 (constantI S_ 32 0#32)) x1)

/-- The 0/1 array "pair `k` of token `(b, s)` selected expert `e`", over `(b, s, k, e)`. -/
def hit (x1 : IVec S4x2048x2 32) : IVec S4x2048x2x8 1 :=
  cmpi .eq
    (broadcastInDim S4x2048x2x8 ![0, 1, 2, 3] bcast_S4x2048x2x1_S4x2048x2x8_0_1_2_3
      (broadcastInDim S4x2048x2x1 ![0, 1, 2] bcast_S4x2048x2_S4x2048x2x1_0_1_2 (clip x1)))
    (broadcastInDim S4x2048x2x8 ![0, 1, 2, 3] bcast_S1x1x1x8_S4x2048x2x8_0_1_2_3
      (broadcastInDim S1x1x1x8 ![3] bcast_S8_S1x1x1x8_3 (iotaInDim S8 32 0)))

/-- The pairs' weights laid along the expert axis. -/
def wide (x2 : FVec F S4x2048x2 .f32) : FVec F S4x2048x2x8 .f32 :=
  broadcastInDim S4x2048x2x8 ![0, 1, 2, 3] bcast_S4x2048x2x1_S4x2048x2x8_0_1_2_3
    (broadcastInDim S4x2048x2x1 ![0, 1, 2] bcast_S4x2048x2_S4x2048x2x1_0_1_2 x2)

/-- The table of spread weights, as the host operations compute it. -/
def wTable (x1 : IVec S4x2048x2 32) (x2 : FVec F S4x2048x2 .f32) : FVec F S4x2048x8 .f32 :=
  Host.reduceAdd (mulf (uitofp .f32 (hit x1)) (wide x2)) (constant S_ .f32 0x00000000#32)
    reducesTo_S4x2048x2x8_S4x2048x8_d2 h_S_

variable (m : (ℓ : Loc nD τ sig) → Buf (Elt F) ℓ)

/-- The array the first window stages is that table of the argument arrays. -/
theorem V_table (c : Dev nD) :
    (V m c main_v11 : S4x2048x8.Idx → Elt F .f32)
      = wTable (F := F) (m ((c : Thread nD τ).loc main_arg1)) (m ((c : Thread nD τ).loc main_arg2)) := by
  dsimp only [V]
  simp only [hostOps0, hostOps0_1, hostOps0_2, List.flatten_cons, List.flatten_nil, List.append_nil, List.cons_append,
    List.nil_append]
  after_results
  rfl

/-! ## The table read at an index -/

theorem clip_apply (x1 : IVec S4x2048x2 32) (i : S4x2048x2.Idx) :
    clip x1 i = IntOp.minsi 7#32 (IntOp.maxsi 0#32 (x1 i)) := by
  show IntOp.minsi (broadcastInDim S4x2048x2 ![] bcast_S_S4x2048x2 (constantI S_ 32 7#32) i)
      (IntOp.maxsi (broadcastInDim S4x2048x2 ![] bcast_S_S4x2048x2 (constantI S_ 32 0#32) i) (x1 i)) = _
  rw [broadcastInDim_apply _ bcast_S_S4x2048x2 (constantI S_ 32 7#32) i ix0 (fun a => a.elim0),
    broadcastInDim_apply _ bcast_S_S4x2048x2 (constantI S_ 32 0#32) i ix0 (fun a => a.elim0)]
  rfl

/-- An array over `(b, s, k)` laid along a new last axis of extent 1 and then of extent 8 reads, at `(b, s, k, e)`,
    its entry at `(b, s, k)`. -/
theorem along_experts {α : Type} (y : S4x2048x2.Idx → α) (b : Fin 4) (s : Fin 2048) (k : Fin 2) (e : Fin 8) :
    broadcastInDim S4x2048x2x8 ![0, 1, 2, 3] bcast_S4x2048x2x1_S4x2048x2x8_0_1_2_3
      (broadcastInDim S4x2048x2x1 ![0, 1, 2] bcast_S4x2048x2_S4x2048x2x1_0_1_2 y) (ix4 b s k e) = y (ix3 b s k) := by
  rw [broadcastInDim_apply _ bcast_S4x2048x2x1_S4x2048x2x8_0_1_2_3 _ (ix4 b s k e) (ix4 b s k 0) (fun a => match a with
      | ⟨0, _⟩ => rfl | ⟨1, _⟩ => rfl | ⟨2, _⟩ => rfl | ⟨3, _⟩ => rfl),
    broadcastInDim_apply _ bcast_S4x2048x2_S4x2048x2x1_0_1_2 y (ix4 b s k 0) (ix3 b s k) (fun a => match a with
      | ⟨0, _⟩ => rfl | ⟨1, _⟩ => rfl | ⟨2, _⟩ => rfl)]

/-- The expert numbers `0 … 7` laid along the last axis read, at `(b, s, k, e)`, the word `e`. -/
theorem expert_numbers (b : Fin 4) (s : Fin 2048) (k : Fin 2) (e : Fin 8) :
    broadcastInDim S4x2048x2x8 ![0, 1, 2, 3] bcast_S1x1x1x8_S4x2048x2x8_0_1_2_3
      (broadcastInDim S1x1x1x8 ![3] bcast_S8_S1x1x1x8_3 (iotaInDim S8 32 0)) (ix4 b s k e) = BitVec.ofNat 32 e.val := by
  rw [broadcastInDim_apply _ bcast_S1x1x1x8_S4x2048x2x8_0_1_2_3 _ (ix4 b s k e) (ix4 0 0 0 e) (fun a => match a with
      | ⟨0, _⟩ => rfl | ⟨1, _⟩ => rfl | ⟨2, _⟩ => rfl | ⟨3, _⟩ => rfl),
    broadcastInDim_apply _ bcast_S8_S1x1x1x8_3 (iotaInDim S8 32 0) (ix4 0 0 0 e) (ix1 e) (fun a => match a with
      | ⟨0, _⟩ => rfl)]
  rfl

/-- THE TABLE at `(b, s, e)`, at the ideal instance: zero plus, over the token's two pairs, the 0/1 integer "the clipped
    id is `e`" (made a real number) times the pair's weight. -/
theorem wTable_apply (x1 : IVec S4x2048x2 32) (x2 : FVec Ideal S4x2048x2 .f32) (b : Fin 4) (s : Fin 2048) (e : Fin 8) :
    wTable (F := Ideal) x1 x2 (ix3 b s e)
      = 0 + ∑ k : Fin 2,
          (((IntOp.cmpi .eq (IntOp.minsi 7#32 (IntOp.maxsi 0#32 (x1 (ix3 b s k)))) (BitVec.ofNat 32 e.val)).toNat : ℝ) : EReal)
            * x2 (ix3 b s k) := by
  unfold wTable
  generalize hy : mulf (uitofp (F := Ideal) .f32 (hit x1)) (wide x2) = y0
  simp only [Host.reduceAdd, Ideal.hostReduceAdd_def]
  rw [Ideal.hostReduceAdd_single reducesTo_S4x2048x2x8_S4x2048x8_d2 (by decide)]
  have hz : (constant (F := Ideal) S_ .f32 0x00000000#32) (Shape.Idx.first h_S_) = 0 := Ideal.ofBits_zero_f32
  rw [hz]
  refine congrArg (0 + ·) (Finset.sum_congr rfl fun k _ => ?_)
  have hj : ((by decide : S4x2048x2x8.Reduces [2] S4x2048x8).lift (ix3 b s e) k : S4x2048x2x8.Idx) = ix4 b s k e :=
    funext fun a => Fin.ext (by match a with | ⟨0, _⟩ => rfl | ⟨1, _⟩ => rfl | ⟨2, _⟩ => rfl | ⟨3, _⟩ => rfl)
  rw [hj, ← hy]
  show FloatOps.mulf (FloatOps.uitofp .f32 (hit x1 (ix4 b s k e))) (wide x2 (ix4 b s k e)) = _
  have hh : hit x1 (ix4 b s k e)
      = IntOp.cmpi .eq (IntOp.minsi 7#32 (IntOp.maxsi 0#32 (x1 (ix3 b s k)))) (BitVec.ofNat 32 e.val) := by
    show IntOp.cmpi .eq _ _ = _
    rw [along_experts (clip x1) b s k e, expert_numbers b s k e, clip_apply]
  have hw : wide x2 (ix4 b s k e) = x2 (ix3 b s k) := along_experts x2 b s k e
  rw [hh, hw]
  rfl

end Cert.Mix.Ker

end
-- ==== Proof.KerValue.lean ====
/-
  The kernel's result array, as one function of the arrays the region finds.

  Grid point `(bi, si)` stages rows `512·si … 512·si + 511` of batch `bi`: the `[512 × 8]` slab of the weight table, the
  `[8 × 512 × 1024]` slab of expert values, and writes the `[512 × 1024]` slab of the result. Inside a block, row `r`
  and column `q` of the result are the eight-term accumulation `Σₑ table(r, e) · value(e, r, q)`, in ascending
  expert order. The sixteen blocks tile the result array, so after the run the whole array is that accumulation of the
  whole table and the whole expert-value array, index by index (`acc`).
-/
import proofs.«413084_j64639257805147_3_alg».proof.Proof.Gen.KernelIdeal.Value
import Idealize.ShloMosaic.Lib.Pipeline.Value
import Idealize.ShloMosaic.Lib.ValueIdx

noncomputable section

namespace Cert.Mix.Ker

open Cert.KernelIdeal Cert.KernelIdeal.Gen Idealize.ShloMosaic Idealize.ShloMosaic.TcCoe Idealize.SL.Sem
open Idealize.ShloMosaic.ValueIdx
open Idealize.ShloMosaic.Pipeline (Dat)

/-- The eight-term accumulation for token `(b, s)` at hidden coordinate `h`: table entry times expert value, experts
    ascending, grouped from the left as the body adds them. -/
def accAt (tbl : S4x2048x8.Idx → EReal) (eo : S8x4x2048x1024.Idx → EReal) (b : Fin 4) (s : Fin 2048) (h : Fin 1024) : EReal :=
  tbl (ix3 b s 0) * eo (ix4 0 b s h) + tbl (ix3 b s 1) * eo (ix4 1 b s h) + tbl (ix3 b s 2) * eo (ix4 2 b s h)
    + tbl (ix3 b s 3) * eo (ix4 3 b s h) + tbl (ix3 b s 4) * eo (ix4 4 b s h) + tbl (ix3 b s 5) * eo (ix4 5 b s h)
    + tbl (ix3 b s 6) * eo (ix4 6 b s h) + tbl (ix3 b s 7) * eo (ix4 7 b s h)

/-- The whole result array. -/
def acc (tbl : S4x2048x8.Idx → EReal) (eo : S8x4x2048x1024.Idx → EReal) : S4x2048x1024.Idx → EReal :=
  fun i => accAt tbl eo ⟨(i 0).val, (i 0).isLt⟩ ⟨(i 1).val, (i 1).isLt⟩ ⟨(i 2).val, (i 2).isLt⟩

/-! ## The body at one block index -/

/-- A load of column `e` of the staged `[1 × 512 × 8]` table slab reads, at row `r`, the slab at `(0, r, e)`. -/
theorem ld_col (X0 : Vec Ideal S1x512x8 .f32) (e : Nat) (he : e < 8) (inb) (x : S1x512x1.Idx) (r : Fin 512)
    (hx : (x 1).val = r.val) :
    View.ld X0 (Rect.unit (s := S1x512x8) ![0, 0, e] S1x512x1.size inb) x = X0 (ix3 0 r ⟨e, he⟩) := by
  refine congrArg X0 (funext fun a => Fin.ext ?_)
  match a with
  | ⟨0, _⟩ => show 0 + 1 * (x 0).val = 0; have : (x 0).val < 1 := (x 0).isLt; omega
  | ⟨1, _⟩ => show 0 + 1 * (x 1).val = r.val; omega
  | ⟨2, _⟩ => show e + 1 * (x 2).val = e; have : (x 2).val < 1 := (x 2).isLt; omega

/-- A load of expert `e`'s plane of the staged `[8 × 1 × 512 × 1024]` slab reads, at `(r, q)`, the slab at
    `(e, 0, r, q)`. -/
theorem ld_plane (X1 : Vec Ideal S8x1x512x1024 .f32) (e : Nat) (he : e < 8) (inb) (x : S1x1x512x1024.Idx) (r : Fin 512)
    (q : Fin 1024) (hr : (x 2).val = r.val) (hq : (x 3).val = q.val) :
    View.ld X1 (Rect.unit (s := S8x1x512x1024) ![e, 0, 0, 0] S1x1x512x1024.size inb) x = X1 (ix4 ⟨e, he⟩ 0 r q) := by
  refine congrArg X1 (funext fun a => Fin.ext ?_)
  match a with
  | ⟨0, _⟩ => show e + 1 * (x 0).val = e; have : (x 0).val < 1 := (x 0).isLt; omega
  | ⟨1, _⟩ => show 0 + 1 * (x 1).val = 0; have : (x 1).val < 1 := (x 1).isLt; omega
  | ⟨2, _⟩ => show 0 + 1 * (x 2).val = r.val; omega
  | ⟨3, _⟩ => show 0 + 1 * (x 3).val = q.val; omega

/-- What the body leaves at row `r`, column `q` of the output block: the accumulation over the two staged slabs. -/
theorem body_at (X0 : Vec Ideal S1x512x8 .f32) (X1 : Vec Ideal S8x1x512x1024 .f32) (r : Fin 512) (q : Fin 1024) :
    out0_2 X0 X1 (ix3 0 r q)
      = X0 (ix3 0 r 0) * X1 (ix4 0 0 r q) + X0 (ix3 0 r 1) * X1 (ix4 1 0 r q) + X0 (ix3 0 r 2) * X1 (ix4 2 0 r q)
        + X0 (ix3 0 r 3) * X1 (ix4 3 0 r q) + X0 (ix3 0 r 4) * X1 (ix4 4 0 r q) + X0 (ix3 0 r 5) * X1 (ix4 5 0 r q)
        + X0 (ix3 0 r 6) * X1 (ix4 6 0 r q) + X0 (ix3 0 r 7) * X1 (ix4 7 0 r q) := by
  unfold out0_2
  rw [Cert.KernelIdeal.Value.canon2_eq]
  dsimp only [Cert.KernelIdeal.Value.E2]
  rw [ld_col X0 0 (by decide) _ _ r rfl, ld_col X0 1 (by decide) _ _ r rfl, ld_col X0 2 (by decide) _ _ r rfl,
    ld_col X0 3 (by decide) _ _ r rfl, ld_col X0 4 (by decide) _ _ r rfl, ld_col X0 5 (by decide) _ _ r rfl,
    ld_col X0 6 (by decide) _ _ r rfl, ld_col X0 7 (by decide) _ _ r rfl,
    ld_plane X1 0 (by decide) _ _ r q rfl rfl, ld_plane X1 1 (by decide) _ _ r q rfl rfl,
    ld_plane X1 2 (by decide) _ _ r q rfl rfl, ld_plane X1 3 (by decide) _ _ r q rfl rfl,
    ld_plane X1 4 (by decide) _ _ r q rfl rfl, ld_plane X1 5 (by decide) _ _ r q rfl rfl,
    ld_plane X1 6 (by decide) _ _ r q rfl rfl, ld_plane X1 7 (by decide) _ _ r q rfl rfl]
  rfl

/-- The same at any index of the output block: its leading coordinate is 0 (the block's leading extent is 1). -/
theorem body_at' (X0 : Vec Ideal S1x512x8 .f32) (X1 : Vec Ideal S8x1x512x1024 .f32) (y : S1x512x1024.Idx)
    (r : Fin 512) (q : Fin 1024) (hr : (y 1).val = r.val) (hq : (y 2).val = q.val) :
    out0_2 X0 X1 y
      = X0 (ix3 0 r 0) * X1 (ix4 0 0 r q) + X0 (ix3 0 r 1) * X1 (ix4 1 0 r q) + X0 (ix3 0 r 2) * X1 (ix4 2 0 r q)
        + X0 (ix3 0 r 3) * X1 (ix4 3 0 r q) + X0 (ix3 0 r 4) * X1 (ix4 4 0 r q) + X0 (ix3 0 r 5) * X1 (ix4 5 0 r q)
        + X0 (ix3 0 r 6) * X1 (ix4 6 0 r q) + X0 (ix3 0 r 7) * X1 (ix4 7 0 r q) := by
  have hy : y = ix3 0 r q := funext fun a => Fin.ext (by
    match a with
    | ⟨0, _⟩ => show (y 0).val = 0; have : (y 0).val < 1 := (y 0).isLt; omega
    | ⟨1, _⟩ => exact hr
    | ⟨2, _⟩ => exact hq)
  rw [hy]
  exact body_at X0 X1 r q

/-! ## From blocks to the array -/

variable (m : (ℓ : Loc nD τ sig) → Buf (Elt Ideal) ℓ) (ρ : Dev nD → PrngReg)

/-- How the three windows' block indices move over the grid (decided over its 16 points): the table's and the
    expert values' row blocks move with the output's, on the batch axis and on the sequence axis; every other block
    index is 0; the output's are at most 3. -/
theorem idx_facts : ∀ t : Fin cfg0.N,
    win0_0.index t (0 : Fin 3) = win0_2.index t (0 : Fin 3) ∧ win0_0.index t (1 : Fin 3) = win0_2.index t (1 : Fin 3)
    ∧ win0_0.index t (2 : Fin 3) = 0
    ∧ win0_1.index t (0 : Fin 4) = 0 ∧ win0_1.index t (1 : Fin 4) = win0_2.index t (0 : Fin 3)
    ∧ win0_1.index t (2 : Fin 4) = win0_2.index t (1 : Fin 3) ∧ win0_1.index t (3 : Fin 4) = 0
    ∧ win0_2.index t (2 : Fin 3) = 0 ∧ win0_2.index t (0 : Fin 3) ≤ 3 ∧ win0_2.index t (1 : Fin 3) ≤ 3 :=
  (by decide +kernel : ∀ t : Fin grid0.N, _)

/-- Every (batch, row-block) pair is some grid point's. -/
theorem idx_onto : ∀ (q0 : Fin 4) (q1 : Fin 4), ∃ t : Fin cfg0.N, win0_2.index t = ![q0.val, q1.val, 0] :=
  (by decide +kernel : ∀ (q0 : Fin 4) (q1 : Fin 4), ∃ t : Fin grid0.N, win0_2.index t = ![q0.val, q1.val, 0])

/-- The table slab staged at point `t`, read at a block index, is the table at the array index under it. -/
theorem read_tbl (c : Dev nD) (t : Fin cfg0.N) (y : S1x512x8.Idx) (i : S4x2048x8.Idx)
    (h0 : win0_0.index t (0 : Fin 3) * 1 + 1 * (y 0).val = (i 0).val)
    (h1 : win0_0.index t (1 : Fin 3) * 512 + 1 * (y 1).val = (i 1).val)
    (h2 : win0_0.index t (2 : Fin 3) * 8 + 1 * (y 2).val = (i 2).val) :
    iblk m c 0 t y = V m c main_v11 i := by
  show V m c main_v11 (((cfg0.win 0).blk t).view.emb y) = V m c main_v11 i
  refine congrArg _ (funext fun a => Fin.ext ?_)
  match a with
  | ⟨0, _⟩ => exact h0
  | ⟨1, _⟩ => exact h1
  | ⟨2, _⟩ => exact h2

/-- The expert-value slab staged at point `t`, read at a block index, is the array at the index under it. -/
theorem read_eo (c : Dev nD) (t : Fin cfg0.N) (y : S8x1x512x1024.Idx) (i : S8x4x2048x1024.Idx)
    (h0 : win0_1.index t (0 : Fin 4) * 8 + 1 * (y 0).val = (i 0).val)
    (h1 : win0_1.index t (1 : Fin 4) * 1 + 1 * (y 1).val = (i 1).val)
    (h2 : win0_1.index t (2 : Fin 4) * 512 + 1 * (y 2).val = (i 2).val)
    (h3 : win0_1.index t (3 : Fin 4) * 1024 + 1 * (y 3).val = (i 3).val) :
    iblk m c 1 t y = V m c main_arg3 i := by
  show V m c main_arg3 (((cfg0.win 1).blk t).view.emb y) = V m c main_arg3 i
  refine congrArg _ (funext fun a => Fin.ext ?_)
  match a with
  | ⟨0, _⟩ => exact h0
  | ⟨1, _⟩ => exact h1
  | ⟨2, _⟩ => exact h2
  | ⟨3, _⟩ => exact h3

/-- WHAT POINT `t` WRITES BACK is block `t` of the accumulation of the whole table and the whole expert-value array. -/
theorem flushed_eq (c : Dev nD) (t : Fin cfg0.N) :
    (dats m 0 c).flushed 2 t
      = ((cfg0.win 2).blk t).view.read (Elt Ideal) (acc (V m c main_v11) (V m c main_arg3)) := by
  rw [Cert.KernelIdeal.Value.flushed2]
  obtain ⟨e0, e1, e2, e3, e4, e5, e6, e7, e8, e9⟩ := idx_facts t
  funext j
  have hj1 : (j 1).val < 512 := (j 1).isLt
  have hj2 : (j 2).val < 1024 := (j 2).isLt
  have hj0 : (j 0).val < 1 := (j 0).isLt
  show out0_2 (iblk m c 0 t) (iblk m c 1 t) j
      = acc (V m c main_v11) (V m c main_arg3) (((cfg0.win 2).blk t).view.emb j)
  refine (body_at' (iblk m c 0 t) (iblk m c 1 t) j ⟨(j 1).val, hj1⟩ ⟨(j 2).val, hj2⟩ rfl rfl).trans ?_
  -- the array index under block index `j`
  have hB : win0_2.index t (0 : Fin 3) < 4 := by omega
  have hS : win0_2.index t (1 : Fin 3) * 512 + (j 1).val < 2048 := by omega
  have hemb : ((cfg0.win 2).blk t).view.emb j
      = ix3 ⟨win0_2.index t (0 : Fin 3), hB⟩ ⟨win0_2.index t (1 : Fin 3) * 512 + (j 1).val, hS⟩ ⟨(j 2).val, hj2⟩ :=
    funext fun a => Fin.ext (by
      match a with
      | ⟨0, _⟩ => show win0_2.index t (0 : Fin 3) * 1 + 1 * (j 0).val = win0_2.index t (0 : Fin 3); omega
      | ⟨1, _⟩ => show win0_2.index t (1 : Fin 3) * 512 + 1 * (j 1).val = win0_2.index t (1 : Fin 3) * 512 + (j 1).val; omega
      | ⟨2, _⟩ => show win0_2.index t (2 : Fin 3) * 1024 + 1 * (j 2).val = (j 2).val; omega)
  rw [hemb]
  show _ = accAt (V m c main_v11) (V m c main_arg3) ⟨win0_2.index t (0 : Fin 3), hB⟩
      ⟨win0_2.index t (1 : Fin 3) * 512 + (j 1).val, hS⟩ ⟨(j 2).val, hj2⟩
  unfold accAt
  have T : ∀ e : Fin 8, iblk m c 0 t (ix3 0 ⟨(j 1).val, hj1⟩ e)
      = V m c main_v11 (ix3 ⟨win0_2.index t (0 : Fin 3), hB⟩ ⟨win0_2.index t (1 : Fin 3) * 512 + (j 1).val, hS⟩ e) :=
    fun e => read_tbl m c t _ _ (by show win0_0.index t (0 : Fin 3) * 1 + 1 * 0 = win0_2.index t (0 : Fin 3); omega)
      (by show win0_0.index t (1 : Fin 3) * 512 + 1 * (j 1).val = win0_2.index t (1 : Fin 3) * 512 + (j 1).val; omega)
      (by show win0_0.index t (2 : Fin 3) * 8 + 1 * e.val = e.val; omega)
  have X : ∀ e : Fin 8, iblk m c 1 t (ix4 e 0 ⟨(j 1).val, hj1⟩ ⟨(j 2).val, hj2⟩)
      = V m c main_arg3 (ix4 e ⟨win0_2.index t (0 : Fin 3), hB⟩ ⟨win0_2.index t (1 : Fin 3) * 512 + (j 1).val, hS⟩ ⟨(j 2).val, hj2⟩) :=
    fun e => read_eo m c t _ _ (by show win0_1.index t (0 : Fin 4) * 8 + 1 * e.val = e.val; omega)
      (by show win0_1.index t (1 : Fin 4) * 1 + 1 * 0 = win0_2.index t (0 : Fin 3); omega)
      (by show win0_1.index t (2 : Fin 4) * 512 + 1 * (j 1).val = win0_2.index t (1 : Fin 3) * 512 + (j 1).val; omega)
      (by show win0_1.index t (3 : Fin 4) * 1024 + 1 * (j 2).val = (j 2).val; omega)
  rw [T 0, T 1, T 2, T 3, T 4, T 5, T 6, T 7, X 0, X 1, X 2, X 3, X 4, X 5, X 6, X 7]

/-- An index of the result array is in point `t`'s block iff each coordinate is in the block's range on its axis. -/
theorem mem_blk (t : Fin cfg0.N) (i : S4x2048x1024.Idx) :
    i ∈ ((cfg0.win 2).blk t).view.set ↔ ∀ a : Fin 3, win0_2.index t a * S1x512x1024.size a ≤ (i a).val
      ∧ (i a).val < win0_2.index t a * S1x512x1024.size a + S1x512x1024.size a := by
  show i ∈ ((View.whole main_v12).slice (win0_2.rect t)).set ↔ _
  rw [View.set_slice_whole, Rect.mem_set_unit]
  exact Iff.rfl

/-- The sixteen blocks cover the result array: row `s` of batch `b` is in the block of point `(b, s / 512)`. -/
theorem cover (i : S4x2048x1024.Idx) :
    ∃ t : Fin cfg0.N, (cfg0.win 2).flush t = true ∧ i ∈ ((cfg0.win 2).blk t).view.set := by
  have hi0 : (i 0).val < 4 := (i 0).isLt
  have hi1 : (i 1).val < 2048 := (i 1).isLt
  have hi2 : (i 2).val < 1024 := (i 2).isLt
  obtain ⟨t, ht⟩ := idx_onto ⟨(i 0).val, hi0⟩ ⟨(i 1).val / 512, by omega⟩
  have q0 : win0_2.index t (0 : Fin 3) = (i 0).val := congrFun ht 0
  have q1 : win0_2.index t (1 : Fin 3) = (i 1).val / 512 := congrFun ht 1
  have q2 : win0_2.index t (2 : Fin 3) = 0 := congrFun ht 2
  refine ⟨t, flush0_2 t, ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 512 ≤ (i 1).val ∧ (i 1).val < win0_2.index t (1 : Fin 3) * 512 + 512; omega
  | ⟨2, _⟩ => show win0_2.index t (2 : Fin 3) * 1024 ≤ (i 2).val ∧ (i 2).val < win0_2.index t (2 : Fin 3) * 1024 + 1024; omega

/-- THE RESULT ARRAY after the run: the accumulation of the table and the expert values, everywhere. -/
theorem final (c : Dev nD) : (dats m 0 c).arrAt 2 cfg0.N = acc (V m c main_v11) (V m c main_arg3) :=
  (dats m 0 c).arrAt_eq_of_cover 2 (acc (V m c main_v11) (V m c main_arg3)) (fun t _ => flushed_eq m c t) cover

end Cert.Mix.Ker

end
-- ==== Proof.Law.lean ====
/-
  The algebraic law that joins the two programs.

  A token has two (expert id, weight) pairs; `j k` is the expert pair `k` selects. The reference adds the two selected
  expert values, each times its weight. The kernel first spreads the weights over the eight experts — expert `e` gets
  the sum of the weights of the pairs that selected it — and then adds ALL eight expert values, each times its spread
  weight, in ascending expert order. Over the reals these are the same number: exchange the two finite sums and
  collapse the indicator. On the extended reals the exchange needs finite summands (products distribute over sums
  only then), which is where the finiteness of the weights and of the expert values is used.
-/
import Idealize.ShloMosaic.PureOps.Ideal.Laws

namespace Cert.Mix

/-- Over the reals: summing every expert's value times the weight spread onto it is summing each pair's selected
    expert value times the pair's weight. -/
theorem mix_real (j : Fin 2 → Fin 8) (wr : Fin 2 → ℝ) (er : Fin 8 → ℝ) :
    ∑ e : Fin 8, (∑ k : Fin 2, (if j k = e then (1 : ℝ) else 0) * wr k) * er e = ∑ k : Fin 2, er (j k) * wr k := by
  simp_rw [Finset.sum_mul]
  rw [Finset.sum_comm]
  refine Finset.sum_congr rfl fun k _ => ?_
  simp [ite_mul, mul_comm]

/-- The weight spread onto expert `e`, as the kernel's host code computes it: zero plus, for each pair, the indicator
    (a 0/1 integer made a float) of "this pair selected `e`" times the pair's weight. -/
noncomputable def spread (j : Fin 2 → Fin 8) (w : Fin 2 → EReal) (e : Fin 8) : EReal :=
  0 + ∑ k : Fin 2, (((if j k = e then 1 else 0 : ℕ) : ℝ) : EReal) * w k

theorem spread_coe (j : Fin 2 → Fin 8) (wr : Fin 2 → ℝ) (e : Fin 8) :
    spread j (fun k => (wr k : EReal)) e = ((∑ k : Fin 2, (if j k = e then (1 : ℝ) else 0) * wr k : ℝ) : EReal) := by
  simp only [spread, Fin.sum_univ_two, zero_add]
  push_cast
  rfl

/-- THE LAW, for finite weights and finite expert values: the kernel's ascending eight-term accumulation of
    spread weight times expert value is the reference's zero-started two-term sum of selected value times weight. -/
theorem mix_law (j : Fin 2 → Fin 8) (wr : Fin 2 → ℝ) (er : Fin 8 → ℝ) :
    spread j (fun k => (wr k : EReal)) 0 * (er 0 : EReal) + spread j (fun k => (wr k : EReal)) 1 * (er 1 : EReal)
      + spread j (fun k => (wr k : EReal)) 2 * (er 2 : EReal) + spread j (fun k => (wr k : EReal)) 3 * (er 3 : EReal)
      + spread j (fun k => (wr k : EReal)) 4 * (er 4 : EReal) + spread j (fun k => (wr k : EReal)) 5 * (er 5 : EReal)
      + spread j (fun k => (wr k : EReal)) 6 * (er 6 : EReal) + spread j (fun k => (wr k : EReal)) 7 * (er 7 : EReal)
      = 0 + ∑ k : Fin 2, (er (j k) : EReal) * (wr k : EReal) := by
  have h := mix_real j wr er
  rw [Fin.sum_univ_eight] at h
  have hr : (∑ k : Fin 2, (er (j k) : EReal) * (wr k : EReal)) = ((∑ k : Fin 2, er (j k) * wr k : ℝ) : EReal) := by
    rw [Fin.sum_univ_two, Fin.sum_univ_two]
    simp only [EReal.coe_add, EReal.coe_mul]
  simp only [spread_coe, zero_add]
  rw [hr, ← h]
  simp only [EReal.coe_add, EReal.coe_mul]

end Cert.Mix
-- ==== Proof.Bridge.lean ====
/-
  The two results are one function of the arguments.

  At token `(b, s)` and hidden coordinate `h`, with `jₖ = pick (id(b, s, k))` the expert pair `k` selects: the kernel's
  table entry for expert `e` is the weight spread onto `e` (the clipped id equals `e` exactly when `jₖ = e`), so the
  kernel's accumulation is `Σₑ spread(e) · eo(e, b, s, h)`; the reference's value is `0 + Σₖ eo(jₖ, b, s, h) · w(b, s, k)`.
  The weights and expert values being real numbers, the law of the mixture makes the two equal.
-/
import proofs.«413084_j64639257805147_3_alg».proof.Proof.RefValue
import proofs.«413084_j64639257805147_3_alg».proof.Proof.KerHost
import proofs.«413084_j64639257805147_3_alg».proof.Proof.KerValue
import proofs.«413084_j64639257805147_3_alg».proof.Proof.Law
import proofs.«413084_j64639257805147_3_alg».proof.Proof.Words

noncomputable section

namespace Cert.Mix

open Idealize.ShloMosaic Idealize.ShloMosaic.ValueIdx

/-- The kernel's table entry is the spread weight. -/
theorem table_eq_spread (x1 : IVec Cert.KernelIdeal.S4x2048x2 32) (x2 : FVec Ideal Cert.KernelIdeal.S4x2048x2 .f32)
    (hx1 : ∀ i, 0 ≤ (x1 i).toInt) (b : Fin 4) (s : Fin 2048) (e : Fin 8) :
    Ker.wTable (F := Ideal) x1 x2 (ix3 b s e)
      = spread (fun k => pick (x1 (ix3 b s k))) (fun k => x2 (ix3 b s k)) e := by
  rw [Ker.wTable_apply]
  unfold spread
  refine congrArg (0 + ·) (Finset.sum_congr rfl fun k _ => ?_)
  rw [clip_eq_bit _ (hx1 _) e]

/-- THE BRIDGE: over ids that are not negative and finite weights and expert values, the kernel's accumulation of its
    table and the expert values IS the reference's result, as whole arrays. -/
theorem result_eq (x1 : IVec Cert.KernelIdeal.S4x2048x2 32) (x2 : FVec Ideal Cert.KernelIdeal.S4x2048x2 .f32)
    (x3 : FVec Ideal Cert.KernelIdeal.S8x4x2048x1024 .f32)
    (hx1 : ∀ i, 0 ≤ (x1 i).toInt) (hx2 : ∀ i, ∃ r : ℝ, x2 i = (r : EReal)) (hx3 : ∀ i, ∃ r : ℝ, x3 i = (r : EReal)) :
    Ker.acc (Ker.wTable (F := Ideal) x1 x2) x3 = Cert.ReferenceIdeal.Read.val_main_v29 (F := Ideal) x1 x2 x3 := by
  funext i
  obtain ⟨b, s, h, rfl⟩ : ∃ (b : Fin 4) (s : Fin 2048) (h : Fin 1024), i = ix3 b s h := ⟨i 0, i 1, i 2, eq_ix3 i⟩
  rw [Ref.value x1 x2 x3 hx1 b s h]
  show Ker.accAt (Ker.wTable (F := Ideal) x1 x2) x3 b s h = _
  unfold Ker.accAt
  simp only [table_eq_spread x1 x2 hx1]
  choose wr hwr using fun k : Fin 2 => hx2 (ix3 b s k)
  choose er her using fun e : Fin 8 => hx3 (ix4 e b s h)
  have hw : (fun k : Fin 2 => x2 (ix3 b s k)) = fun k => (wr k : EReal) := funext hwr
  rw [hw, her 0, her 1, her 2, her 3, her 4, her 5, her 6, her 7]
  rw [mix_law (fun k => pick (x1 (ix3 b s k))) wr er]
  refine congrArg (0 + ·) (Finset.sum_congr rfl fun k _ => ?_)
  rw [her, hwr]

end Cert.Mix

end
-- ==== Proof.lean ====
/-
  The combine step of a mixture of experts: every token `(b, s)` carries two (expert id, gate weight) pairs, and the
  result at hidden coordinate `h` is the weighted sum of the two selected experts' values,
  `out(b, s, h) = Σₖ eo(id(b, s, k), b, s, h) · w(b, s, k)`.

  The reference gathers the two selected expert rows and sums the two products. The kernel never gathers: host code
  first spreads each token's weights over the eight experts (`W(b, s, e)` = the sum of the weights of the pairs whose
  id, clipped into `[0, 7]`, is `e`), and the pallas_call then streams all eight expert slabs and accumulates
  `Σₑ W(b, s, e) · eo(e, b, s, h)` in ascending expert order. Exchanging the sum over experts with the sum over pairs
  and collapsing the indicator turns one into the other; on the extended reals that exchange needs the weights and the
  expert values finite, which the precondition gives. The precondition also asks every id to be non-negative: a
  negative id is wrapped by the reference's indexing (`−1` selects the LAST expert) but clipped to expert 0 by the
  kernel, so there the two programs differ; an id past the last expert is clamped to the last expert by both.

  Modules: `Words` (which expert an id selects, in both programs' integer arithmetic), `Law` (the exchange of sums),
  `PreFacts` (the precondition read element by element), `LibGather3` (a three-component gather read at an index),
  `RefValue` (the reference's result at an index), `KerHost` (the spread-weight table), `KerValue` (the kernel's result
  array, from blocks to the whole array), `Bridge` (the two results are one function); here, the five claims.
-/
import proofs.«413084_j64639257805147_3_alg».proof.Defs
import proofs.«413084_j64639257805147_3_alg».proof.Proof.Gen.Kernel
import proofs.«413084_j64639257805147_3_alg».proof.Proof.Gen.Kernel.Skeleton
import proofs.«413084_j64639257805147_3_alg».proof.Proof.Gen.Kernel.Launch
import proofs.«413084_j64639257805147_3_alg».proof.Proof.Gen.Kernel.Points
import proofs.«413084_j64639257805147_3_alg».proof.Proof.Gen.Kernel.Frame
import proofs.«413084_j64639257805147_3_alg».proof.Proof.Gen.KernelIdeal
import proofs.«413084_j64639257805147_3_alg».proof.Proof.Gen.KernelIdeal.Skeleton
import proofs.«413084_j64639257805147_3_alg».proof.Proof.Gen.KernelIdeal.Launch
import proofs.«413084_j64639257805147_3_alg».proof.Proof.Gen.KernelIdeal.Points
import proofs.«413084_j64639257805147_3_alg».proof.Proof.Gen.KernelIdeal.Frame
import proofs.«413084_j64639257805147_3_alg».proof.Proof.Gen.ReferenceIdeal
import proofs.«413084_j64639257805147_3_alg».proof.Proof.Gen.Pre_finite_inputs
import proofs.«413084_j64639257805147_3_alg».proof.Proof.Gen.KernelIdeal.Value
import proofs.«413084_j64639257805147_3_alg».proof.Proof.Gen.ReferenceIdeal.Run
import proofs.«413084_j64639257805147_3_alg».proof.Proof.Gen.ReferenceIdeal.Read
import proofs.«413084_j64639257805147_3_alg».proof.Proof.PreFacts
import proofs.«413084_j64639257805147_3_alg».proof.Proof.Bridge
import Idealize.ShloMosaic.Adequacy
import Idealize.ShloMosaic.Init

noncomputable section

namespace Cert.Proof

open Idealize.ShloMosaic Idealize.SL.Sem

/-- The word-level kernel runs and leaves its arguments alone: the generated frame. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference is a line of host operations: its generated run, the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the reference's result function of the (agreeing) arguments: the kernel's blocks tile the
    accumulation of its spread-weight table and the expert values, which is that function where the precondition holds. -/
theorem algebraic : Cert.algebraic_KernelIdeal_ReferenceIdeal := by
  intro m ρ m' ρ' hpre hagree
  refine ⟨fun c => Cert.ReferenceIdeal.Read.val_main_v29 (F := Ideal)
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · refine (θ_run Cert.KernelIdeal.defs _ _).mono (fun r h c => ⟨(h c).1.trans ?_, (h c).2⟩)
      (Cert.KernelIdeal.Value.run_blocks m ρ)
    obtain ⟨h2, h3, h1⟩ := Cert.Mix.pre_elementwise _ _ _ _ (hpre c)
    rw [Cert.Mix.Ker.final m c, Cert.Mix.Ker.V_table m c, Cert.KernelIdeal.Gen.V_main_arg3 m c]
    exact Cert.Mix.result_eq _ _ _ h1 h2 h3
  · refine (θ_run Cert.ReferenceIdeal.defs _ _).mono (fun r h c => ⟨?_, (h c).2⟩)
      (Cert.ReferenceIdeal.Value.run (F := Ideal) m' ρ')
    rw [(h c).1, Cert.ReferenceIdeal.Read.val_main_v29_eq, (hagree c).2.1, (hagree c).2.2.1, (hagree c).2.2.2]

theorem claim : Cert.Claim := ⟨Cert.Kernel.Gen.facts, Cert.KernelIdeal.Gen.facts, Cert.ReferenceIdeal.Gen.facts,
  Cert.Pre_finite_inputs.Gen.facts, frame_k, frame_ki, frame_ri, trivial, algebraic⟩

end Cert.Proof

end
